-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x16 .f32) (main_arg4 : FVec F S16 .f32) (main_arg5 : FVec F S16x32 .f32) (main_arg6 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩
abbrev S1600000x1 : Shape := ⟨2, ![1600000, 1]⟩
abbrev S1600000x128 : Shape := ⟨2, ![1600000, 128]⟩
abbrev S1x16 : Shape := ⟨2, ![1, 16]⟩
abbrev S100000x16 : Shape := ⟨2, ![100000, 16]⟩
abbrev S5000x128 : Shape := ⟨2, ![5000, 128]⟩
abbrev S5000x16 : Shape := ⟨2, ![5000, 16]⟩
abbrev S1600000x16 : Shape := ⟨2, ![1600000, 16]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 37
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S1x16, .f32⟩
  | .hbm, ⟨21, _⟩ => ⟨S100000x16, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x16, .f32⟩
  | .hbm, ⟨31, _⟩ => ⟨S_, .f32⟩
  | .hbm, ⟨32, _⟩ => ⟨S100000x16, .f32⟩
  | .hbm, ⟨33, _⟩ => ⟨S1600000x1, .i32⟩
  | .hbm, ⟨34, _⟩ => ⟨S100000x16, .f32⟩
  | .hbm, ⟨35, _⟩ => ⟨S1x32, .f32⟩
  | .hbm, ⟨36, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S1x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S16x32, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S32_S1x32 : S32.ShapeCasts S1x32
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x16_S5000x16_1_0_0_1_n_n_wf : DotDims.WF S5000x128 S128x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x32_S5000x32_1_0_0_1_n_n_wf : DotDims.WF S5000x16 S16x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .f32 = 32 ∨ (Rect.block (s := S16x32) S16x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩
abbrev S1600000x1 : Shape := ⟨2, ![1600000, 1]⟩
abbrev S1600000x128 : Shape := ⟨2, ![1600000, 128]⟩
abbrev S100000x16 : Shape := ⟨2, ![100000, 16]⟩
abbrev S1x16 : Shape := ⟨2, ![1, 16]⟩
abbrev S1600000x16 : Shape := ⟨2, ![1600000, 16]⟩
abbrev S100000x32 : Shape := ⟨2, ![100000, 32]⟩
abbrev S1x32 : Shape := ⟨2, ![1, 32]⟩

abbrev nBuf : Space → Nat
  | .hbm => 44
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x16, .f32⟩
  | .hbm, ⟨21, _⟩ => ⟨S1x16, .f32⟩
  | .hbm, ⟨22, _⟩ => ⟨S100000x16, .f32⟩
  | .hbm, ⟨23, _⟩ => ⟨S100000x16, .f32⟩
  | .hbm, ⟨24, _⟩ => ⟨S_, .f32⟩
  | .hbm, ⟨25, _⟩ => ⟨S100000x16, .f32⟩
  | .hbm, ⟨26, _⟩ => ⟨S100000x16, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x16, .f32⟩
  | .hbm, ⟨36, _⟩ => ⟨S_, .f32⟩
  | .hbm, ⟨37, _⟩ => ⟨S100000x16, .f32⟩
  | .hbm, ⟨38, _⟩ => ⟨S1600000x1, .i32⟩
  | .hbm, ⟨39, _⟩ => ⟨S100000x16, .f32⟩
  | .hbm, ⟨40, _⟩ => ⟨S100000x32, .f32⟩
  | .hbm, ⟨41, _⟩ => ⟨S1x32, .f32⟩
  | .hbm, ⟨42, _⟩ => ⟨S100000x32, .f32⟩
  | .hbm, ⟨43, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.KernelBody.lean ====
/-
  What each kernel body leaves in its output block, read at one entry.

  A body loads a block of 5000 aggregated rows, the whole weight matrix and the bias row, multiplies (the operands
  narrowed to bfloat16, which over the extended reals changes nothing), adds the bias row to every row, and — in the
  first layer — rectifies. Entry (p, q) of the stored block is therefore

    max (∑ k, X (p, k) · W (k, q) + b (0, q)) 0      (first layer),
         ∑ k, X (p, k) · W (k, q) + b (0, q)          (second layer),

  the sum running over the one contracted axis: the product into a zero accumulator is the plain sum of products.
-/
import proofs.«121119_j317827580689_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx
open scoped BigOperators

/-- The offset of every access in the bodies: the block's origin. -/
theorem origin : (![0, 0] : Fin 2 → Nat) = fun _ => 0 := funext fun a => by fin_cases a <;> rfl

/-! ## The first layer's product: rows of the block against columns of the weights -/

theorem lhs1_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs1_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem rhs1_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem rhs1_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- Entry (p, q) of the first layer's product into a zero accumulator: row p of the block against column q. -/
theorem product1 (a : FVec Ideal S5000x128 .bf16) (b : FVec Ideal S128x16 .bf16) (p : Fin 5000) (q : Fin 16) :
    FloatOps.matmul dot_S5000x128_S128x16_S5000x16_1_0_0_1_n_n none a b (constant S5000x16 .f32 0x00000000#32) (ix2 p q)
      = ∑ k : Fin 128, a (ix2 p k) * b (ix2 k q) := by
  rw [Ideal.matmul_constant_zero_apply, ← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx (ix2 p q) ((ValueIdx.contrEquiv1 dot_S5000x128_S128x16_S5000x16_1_0_0_1_n_n 128 rfl rfl).symm k) = ix2 p k := funext fun ax => Fin.ext (by
    match ax with
    | ⟨0, _⟩ => exact lhs1_0 _ _
    | ⟨1, _⟩ => exact (lhs1_1 _ _).trans hk)
  have er : dot_S5000x128_S128x16_S5000x16_1_0_0_1_n_n.rhsIdx (ix2 p q) ((ValueIdx.contrEquiv1 dot_S5000x128_S128x16_S5000x16_1_0_0_1_n_n 128 rfl rfl).symm k) = ix2 k q := funext fun ax => Fin.ext (by
    match ax with
    | ⟨0, _⟩ => exact (rhs1_0 _ _).trans hk
    | ⟨1, _⟩ => exact rhs1_1 _ _)
  rw [el, er]

/-- Entry (p, q) of the block the first layer's body stores. -/
theorem hidden_block (x0 : Vec Ideal S5000x128 .f32) (x1 : Vec Ideal S128x16 .f32) (x2 : Vec Ideal S1x16 .f32)
    (p : Fin 5000) (q : Fin 16) :
    out0_3 (F := Ideal) x0 x1 x2 (ix2 p q)
      = max ((∑ k : Fin 128, x0 (ix2 p k) * x1 (ix2 k q)) + x2 (ix2 (0 : Fin 1) q)) (Ideal.ofBits .f32 0x00000000#32) := by
  unfold out0_3
  rw [View.canon_unit_zero origin]
  simp only [View.ld_unit_zero (S := S5000x128) origin, View.ld_unit_zero (S := S128x16) origin, View.ld_unit_zero (S := S1x16) origin]
  unfold k0_pay1
  simp only [shapeCast_self]
  refine congrArg₂ max (congrArg₂ (· + ·) ?_ ?_) rfl
  · exact product1 _ _ p q
  · exact broadcastTo_1b_ab_apply x2 broadcasts_S1x16_S5000x16 p q

/-! ## The second layer's product -/

theorem lhs2_0 (i : S5000x32.Idx) (q : dot_S5000x16_S16x32_S5000x32_1_0_0_1_n_n.contr.Idx) :
    (dot_S5000x16_S16x32_S5000x32_1_0_0_1_n_n.lhsIdx i q 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem lhs2_1 (i : S5000x32.Idx) (q : dot_S5000x16_S16x32_S5000x32_1_0_0_1_n_n.contr.Idx) :
    (dot_S5000x16_S16x32_S5000x32_1_0_0_1_n_n.lhsIdx i q 1).val = (q ⟨0, by decide⟩).val :=
  dot_S5000x16_S16x32_S5000x32_1_0_0_1_n_n.lhsIdx_val_of_single rfl i q
theorem rhs2_0 (i : S5000x32.Idx) (q : dot_S5000x16_S16x32_S5000x32_1_0_0_1_n_n.contr.Idx) :
    (dot_S5000x16_S16x32_S5000x32_1_0_0_1_n_n.rhsIdx i q 0).val = (q ⟨0, by decide⟩).val :=
  dot_S5000x16_S16x32_S5000x32_1_0_0_1_n_n.rhsIdx_val_of_single rfl i q
theorem rhs2_1 (i : S5000x32.Idx) (q : dot_S5000x16_S16x32_S5000x32_1_0_0_1_n_n.contr.Idx) :
    (dot_S5000x16_S16x32_S5000x32_1_0_0_1_n_n.rhsIdx i q 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

/-- Entry (p, q) of the second layer's product into a zero accumulator: row p of the block against column q. -/
theorem product2 (a : FVec Ideal S5000x16 .bf16) (b : FVec Ideal S16x32 .bf16) (p : Fin 5000) (q : Fin 32) :
    FloatOps.matmul dot_S5000x16_S16x32_S5000x32_1_0_0_1_n_n none a b (constant S5000x32 .f32 0x00000000#32) (ix2 p q)
      = ∑ k : Fin 16, a (ix2 p k) * b (ix2 k q) := by
  rw [Ideal.matmul_constant_zero_apply, ← Equiv.sum_comp (ValueIdx.contrEquiv1 dot_S5000x16_S16x32_S5000x32_1_0_0_1_n_n 16 rfl rfl).symm]
  refine Finset.sum_congr rfl fun k _ => ?_
  have hk := ValueIdx.contrEquiv1_symm_val dot_S5000x16_S16x32_S5000x32_1_0_0_1_n_n 16 rfl rfl k
  have el : dot_S5000x16_S16x32_S5000x32_1_0_0_1_n_n.lhsIdx (ix2 p q) ((ValueIdx.contrEquiv1 dot_S5000x16_S16x32_S5000x32_1_0_0_1_n_n 16 rfl rfl).symm k) = ix2 p k := funext fun ax => Fin.ext (by
    match ax with
    | ⟨0, _⟩ => exact lhs2_0 _ _
    | ⟨1, _⟩ => exact (lhs2_1 _ _).trans hk)
  have er : dot_S5000x16_S16x32_S5000x32_1_0_0_1_n_n.rhsIdx (ix2 p q) ((ValueIdx.contrEquiv1 dot_S5000x16_S16x32_S5000x32_1_0_0_1_n_n 16 rfl rfl).symm k) = ix2 k q := funext fun ax => Fin.ext (by
    match ax with
    | ⟨0, _⟩ => exact (rhs2_0 _ _).trans hk
    | ⟨1, _⟩ => exact rhs2_1 _ _)
  rw [el, er]

/-- Entry (p, q) of the block the second layer's body stores. -/
theorem output_block (x0 : Vec Ideal S5000x16 .f32) (x1 : Vec Ideal S16x32 .f32) (x2 : Vec Ideal S1x32 .f32)
    (p : Fin 5000) (q : Fin 32) :
    out1_3 (F := Ideal) x0 x1 x2 (ix2 p q)
      = (∑ k : Fin 16, x0 (ix2 p k) * x1 (ix2 k q)) + x2 (ix2 (0 : Fin 1) q) := by
  unfold out1_3
  rw [View.canon_unit_zero origin]
  simp only [View.ld_unit_zero (S := S5000x16) origin, View.ld_unit_zero (S := S16x32) origin, View.ld_unit_zero (S := S1x32) origin]
  unfold k1_pay1
  simp only [shapeCast_self]
  refine congrArg₂ (· + ·) ?_ ?_
  · exact product2 _ _ p q
  · exact broadcastTo_1b_ab_apply x2 broadcasts_S1x32_S5000x32 p q

end Cert.KernelIdeal.Body

end
-- ==== Proof.Layers.lean ====
/-
  The two dense layers of the graph network, as whole-array functions over the extended reals.

  Both programs aggregate neighbour rows with the same host gather and scatter-add and differ only in how the dense
  layer after each aggregation is carried out: the reference multiplies the whole 100000-row array at once, the
  kernel multiplies it 5000 rows at a time. Row `r`, column `j` of a layer depends only on row `r` of the
  aggregated array, on column `j` of the weights and on entry `j` of the bias:

    hidden A W b (r, j) = max (∑ k < 128, A (r, k) · W (k, j) + b (0, j)) 0
    output A W b (r, j) =      ∑ k < 16,  A (r, k) · W (k, j) + b (0, j)

  with the bias held as a one-row array (`asRow`). The zero of the rectifier is kept as the word both programs print.
-/
import Idealize.ShloMosaic.PureOps.Ideal
import Idealize.ShloMosaic.Lib.ValueIdx

noncomputable section

namespace Cert.Gcn

open Idealize.ShloMosaic Idealize.ShloMosaic.ValueIdx
open scoped BigOperators

/-- Aggregated input features: one row of 128 per node. -/
abbrev Feat : Shape := ⟨2, ![100000, 128]⟩
/-- First layer's weights. -/
abbrev Wgt1 : Shape := ⟨2, ![128, 16]⟩
/-- First layer's bias as one row. -/
abbrev Bias1 : Shape := ⟨2, ![1, 16]⟩
/-- Hidden activations: one row of 16 per node. -/
abbrev Hid : Shape := ⟨2, ![100000, 16]⟩
/-- Second layer's weights. -/
abbrev Wgt2 : Shape := ⟨2, ![16, 32]⟩
/-- Second layer's bias as one row. -/
abbrev Bias2 : Shape := ⟨2, ![1, 32]⟩
/-- The result: one row of 32 per node. -/
abbrev Out : Shape := ⟨2, ![100000, 32]⟩

/-- The hidden layer: the rectified affine image of each node's aggregated row. -/
def hidden (A : Feat.Idx → EReal) (W : Wgt1.Idx → EReal) (b : Bias1.Idx → EReal) : Hid.Idx → EReal :=
  fun i => max ((∑ k : Fin 128, A (ix2 (i 0) k) * W (ix2 k (i 1))) + b (ix2 (0 : Fin 1) (i 1)))
    (Ideal.ofBits .f32 0x00000000#32)

/-- The output layer: the affine image of each node's aggregated hidden row. -/
def output (A : Hid.Idx → EReal) (W : Wgt2.Idx → EReal) (b : Bias2.Idx → EReal) : Out.Idx → EReal :=
  fun i => (∑ k : Fin 16, A (ix2 (i 0) k) * W (ix2 k (i 1))) + b (ix2 (0 : Fin 1) (i 1))

/-- A vector of n entries laid out as one row: entry (0, j) is entry j. Both programs hand a layer its bias so,
    one by a reshape and one by a broadcast. -/
def asRow {n : Nat} (b : (⟨1, ![n]⟩ : Shape).Idx → EReal) : (⟨2, ![1, n]⟩ : Shape).Idx → EReal :=
  fun i => b (ix1 (i 1))

theorem hidden_apply (A : Feat.Idx → EReal) (W : Wgt1.Idx → EReal) (b : Bias1.Idx → EReal) (r : Fin 100000) (j : Fin 16) :
    hidden A W b (ix2 r j) = max ((∑ k : Fin 128, A (ix2 r k) * W (ix2 k j)) + b (ix2 (0 : Fin 1) j))
      (Ideal.ofBits .f32 0x00000000#32) := rfl

theorem output_apply (A : Hid.Idx → EReal) (W : Wgt2.Idx → EReal) (b : Bias2.Idx → EReal) (r : Fin 100000) (j : Fin 32) :
    output A W b (ix2 r j) = (∑ k : Fin 16, A (ix2 r k) * W (ix2 k j)) + b (ix2 (0 : Fin 1) j) := rfl

end Cert.Gcn

end
-- ==== Proof.KernelArrays.lean ====
/-
  From blocks to arrays: each region's output array after its run is the dense layer of the arrays the region finds.

  The grid has 20 points; point t reads rows 5000·t … 5000·t + 4999 of the aggregated array, the whole weight matrix
  and the bias row, and writes back rows 5000·t … 5000·t + 4999 of the output. A dense layer's row r depends only on
  row r of its input, so the block a point writes back is that block of the layer of the WHOLE input array; and the
  20 blocks tile the 100000 rows, so the output array ends as the layer of the input array.
-/
import proofs.«121119_j317827580689_1_alg».proof.Proof.KernelBody
import proofs.«121119_j317827580689_1_alg».proof.Proof.Layers

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the buffer contents a region is entered with: a parameter, as in the generated frame
variable (V : (c : Dev nD) → (b : Ref sig .tc) → Buf (Elt Ideal) ((c : Thread nD τ).loc b))

/-! ## The first layer's region -/

/-- Where point t's blocks sit: the row-blocked windows at block-row t, the weights and the bias at the origin. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of the aggregated array is row 5000·t + p of the array. -/
theorem feat_row (c : Dev nD) (t : Fin cfg0.N) (p : Fin 5000) (k : Fin 128) (r : Fin 100000)
    (hr : r.val = 5000 * t.val + p.val) :
    (iblk0 V c 0 t : Vec Ideal S5000x128 .f32) (ix2 p k) = (V c main_v9 : S100000x128.Idx → EReal) (ix2 r k) := by
  unfold iblk0
  rw [View.read_apply]
  refine congrArg (V c main_v9) (funext fun a => Fin.ext ?_)
  match a with
  | ⟨0, _⟩ => show win0_0.index t (0 : Fin 2) * 5000 + 1 * p.val = r.val; rw [(where0 t).1, hr]; omega
  | ⟨1, _⟩ => show win0_0.index t (1 : Fin 2) * 128 + 1 * k.val = k.val; rw [(where0 t).2.1]; omega

/-- Every point's block of the weights is the weight matrix. -/
theorem wgt1_all (c : Dev nD) (t : Fin cfg0.N) (k : Fin 128) (q : Fin 16) :
    (iblk0 V c 1 t : Vec Ideal S128x16 .f32) (ix2 k q) = (V c main_arg3 : S128x16.Idx → EReal) (ix2 k q) := by
  unfold iblk0
  rw [View.read_apply]
  refine congrArg (V c main_arg3) (funext fun a => Fin.ext ?_)
  match a with
  | ⟨0, _⟩ => show win0_1.index t (0 : Fin 2) * 128 + 1 * k.val = k.val; rw [(where0 t).2.2.1]; omega
  | ⟨1, _⟩ => show win0_1.index t (1 : Fin 2) * 16 + 1 * q.val = q.val; rw [(where0 t).2.2.2.1]; omega

/-- Every point's block of the bias row is the bias row. -/
theorem bias1_all (c : Dev nD) (t : Fin cfg0.N) (q : Fin 16) :
    (iblk0 V c 2 t : Vec Ideal S1x16 .f32) (ix2 (0 : Fin 1) q) = (V c main_v10 : S1x16.Idx → EReal) (ix2 (0 : Fin 1) q) := by
  unfold iblk0
  rw [View.read_apply]
  refine congrArg (V c main_v10) (funext fun a => Fin.ext ?_)
  match a with
  | ⟨0, _⟩ => show win0_2.index t (0 : Fin 2) * 1 + 1 * 0 = 0; rw [(where0 t).2.2.2.2.1]
  | ⟨1, _⟩ => show win0_2.index t (1 : Fin 2) * 16 + 1 * q.val = q.val; rw [(where0 t).2.2.2.2.2.1]; omega

/-- What point t writes back is its block of the hidden layer of the arrays the region finds. -/
theorem hidden_flushed (c : Dev nD) (t : Fin cfg0.N) :
    (dat0 (F := Ideal) V c).flushed 3 t
      = ((cfg0.win 3).blk t).view.read (Elt Ideal) (Cert.Gcn.hidden (V c main_v9) (V c main_arg3) (V c main_v10)) := by
  show (cfg0.win 3).cut (grid0.coords t) ((dat0 V c).after 3 t) = _
  rw [after0_3]
  funext j
  rw [View.read_apply]
  have hj0 : (j 0).val < 5000 := (j 0).isLt
  have hj1 : (j 1).val < 16 := (j 1).isLt
  have ht : t.val < 20 := lt_of_lt_of_eq t.isLt N_0
  have hx : (cfg0.win 3).xinj (grid0.coords t) j = ix2 (⟨(j 0).val, hj0⟩ : Fin 5000) (⟨(j 1).val, hj1⟩ : Fin 16) :=
    funext fun a => Fin.ext (by match a with | ⟨0, _⟩ => rfl | ⟨1, _⟩ => rfl)
  have he : ((cfg0.win 3).blk t).view.emb j
      = ix2 (⟨5000 * t.val + (j 0).val, by omega⟩ : Fin 100000) (⟨(j 1).val, hj1⟩ : Fin 16) :=
    funext fun a => Fin.ext (by
      match a with
      | ⟨0, _⟩ => show win0_3.index t (0 : Fin 2) * 5000 + 1 * (j 0).val = 5000 * t.val + (j 0).val; rw [(where0 t).2.2.2.2.2.2.1]; omega
      | ⟨1, _⟩ => show win0_3.index t (1 : Fin 2) * 16 + 1 * (j 1).val = (j 1).val; rw [(where0 t).2.2.2.2.2.2.2]; omega)
  show out0_3 (iblk0 V c 0 t) (iblk0 V c 1 t) (iblk0 V c 2 t) ((cfg0.win 3).xinj (grid0.coords t) j) = _
  rw [hx, he, Cert.Gcn.hidden_apply]
  refine (Body.hidden_block (iblk0 V c 0 t) (iblk0 V c 1 t) (iblk0 V c 2 t) _ _).trans ?_
  refine congrArg₂ max (congrArg₂ (· + ·) (Finset.sum_congr rfl fun k _ => ?_) ?_) rfl
  · exact congrArg₂ (· * ·) (feat_row V c t _ k _ rfl) (wgt1_all V c t k _)
  · exact bias1_all V c t _

/-- Every row of the output is in the block of the point that owns its 5000 rows. -/
theorem hidden_cover (i : S100000x16.Idx) :
    ∃ t : Fin cfg0.N, (cfg0.win 3).flush t = true ∧ i ∈ ((cfg0.win 3).blk t).view.set := by
  have h0 : (i 0).val < 100000 := (i 0).isLt
  have h1 : (i 1).val < 16 := (i 1).isLt
  have hlt : (i 0).val / 5000 < cfg0.N := lt_of_lt_of_eq (by omega : (i 0).val / 5000 < 20) N_0.symm
  refine ⟨⟨(i 0).val / 5000, hlt⟩, flush0_3 _, ?_⟩
  show i ∈ ((View.whole main_v11).slice (win0_3.rect ⟨(i 0).val / 5000, hlt⟩)).set
  rw [View.set_slice_whole, Rect.mem_set_unit]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [(where0 ⟨(i 0).val / 5000, hlt⟩).2.2.2.2.2.2.1]
    show (i 0).val / 5000 * 5000 ≤ (i 0).val ∧ (i 0).val < (i 0).val / 5000 * 5000 + 5000
    omega
  | ⟨1, _⟩ =>
    show win0_3.index ⟨(i 0).val / 5000, hlt⟩ (1 : Fin 2) * 16 ≤ (i 1).val ∧ (i 1).val < win0_3.index ⟨(i 0).val / 5000, hlt⟩ (1 : Fin 2) * 16 + 16
    rw [(where0 ⟨(i 0).val / 5000, hlt⟩).2.2.2.2.2.2.2]
    omega

/-- The first region's output array after its run: the hidden layer of the arrays the region finds. -/
theorem hidden_array (c : Dev nD) :
    (dat0 (F := Ideal) V c).arrAt 3 cfg0.N = Cert.Gcn.hidden (V c main_v9) (V c main_arg3) (V c main_v10) :=
  (dat0 (F := Ideal) V c).arrAt_eq_of_cover 3 _ (fun t _ => hidden_flushed V c t) hidden_cover

/-! ## The second layer's region -/

/-- Where point t's blocks sit in the second region: as in the first. -/
theorem where1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block of the aggregated hidden array is row 5000·t + p of the array. -/
theorem hid_row (c : Dev nD) (t : Fin cfg1.N) (p : Fin 5000) (k : Fin 16) (r : Fin 100000)
    (hr : r.val = 5000 * t.val + p.val) :
    (iblk1 V c 0 t : Vec Ideal S5000x16 .f32) (ix2 p k) = (V c main_v21 : S100000x16.Idx → EReal) (ix2 r k) := by
  unfold iblk1
  rw [View.read_apply]
  refine congrArg (V c main_v21) (funext fun a => Fin.ext ?_)
  match a with
  | ⟨0, _⟩ => show win1_0.index t (0 : Fin 2) * 5000 + 1 * p.val = r.val; rw [(where1 t).1, hr]; omega
  | ⟨1, _⟩ => show win1_0.index t (1 : Fin 2) * 16 + 1 * k.val = k.val; rw [(where1 t).2.1]; omega

/-- Every point's block of the second weights is the weight matrix. -/
theorem wgt2_all (c : Dev nD) (t : Fin cfg1.N) (k : Fin 16) (q : Fin 32) :
    (iblk1 V c 1 t : Vec Ideal S16x32 .f32) (ix2 k q) = (V c main_arg5 : S16x32.Idx → EReal) (ix2 k q) := by
  unfold iblk1
  rw [View.read_apply]
  refine congrArg (V c main_arg5) (funext fun a => Fin.ext ?_)
  match a with
  | ⟨0, _⟩ => show win1_1.index t (0 : Fin 2) * 16 + 1 * k.val = k.val; rw [(where1 t).2.2.1]; omega
  | ⟨1, _⟩ => show win1_1.index t (1 : Fin 2) * 32 + 1 * q.val = q.val; rw [(where1 t).2.2.2.1]; omega

/-- Every point's block of the second bias row is the bias row. -/
theorem bias2_all (c : Dev nD) (t : Fin cfg1.N) (q : Fin 32) :
    (iblk1 V c 2 t : Vec Ideal S1x32 .f32) (ix2 (0 : Fin 1) q) = (V c main_v22 : S1x32.Idx → EReal) (ix2 (0 : Fin 1) q) := by
  unfold iblk1
  rw [View.read_apply]
  refine congrArg (V c main_v22) (funext fun a => Fin.ext ?_)
  match a with
  | ⟨0, _⟩ => show win1_2.index t (0 : Fin 2) * 1 + 1 * 0 = 0; rw [(where1 t).2.2.2.2.1]
  | ⟨1, _⟩ => show win1_2.index t (1 : Fin 2) * 32 + 1 * q.val = q.val; rw [(where1 t).2.2.2.2.2.1]; omega

/-- What point t writes back is its block of the output layer of the arrays the region finds. -/
theorem output_flushed (c : Dev nD) (t : Fin cfg1.N) :
    (dat1 (F := Ideal) V c).flushed 3 t
      = ((cfg1.win 3).blk t).view.read (Elt Ideal) (Cert.Gcn.output (V c main_v21) (V c main_arg5) (V c main_v22)) := by
  show (cfg1.win 3).cut (grid1.coords t) ((dat1 V c).after 3 t) = _
  rw [after1_3]
  funext j
  rw [View.read_apply]
  have hj0 : (j 0).val < 5000 := (j 0).isLt
  have hj1 : (j 1).val < 32 := (j 1).isLt
  have ht : t.val < 20 := lt_of_lt_of_eq t.isLt N_1
  have hx : (cfg1.win 3).xinj (grid1.coords t) j = ix2 (⟨(j 0).val, hj0⟩ : Fin 5000) (⟨(j 1).val, hj1⟩ : Fin 32) :=
    funext fun a => Fin.ext (by match a with | ⟨0, _⟩ => rfl | ⟨1, _⟩ => rfl)
  have he : ((cfg1.win 3).blk t).view.emb j
      = ix2 (⟨5000 * t.val + (j 0).val, by omega⟩ : Fin 100000) (⟨(j 1).val, hj1⟩ : Fin 32) :=
    funext fun a => Fin.ext (by
      match a with
      | ⟨0, _⟩ => show win1_3.index t (0 : Fin 2) * 5000 + 1 * (j 0).val = 5000 * t.val + (j 0).val; rw [(where1 t).2.2.2.2.2.2.1]; omega
      | ⟨1, _⟩ => show win1_3.index t (1 : Fin 2) * 32 + 1 * (j 1).val = (j 1).val; rw [(where1 t).2.2.2.2.2.2.2]; omega)
  show out1_3 (iblk1 V c 0 t) (iblk1 V c 1 t) (iblk1 V c 2 t) ((cfg1.win 3).xinj (grid1.coords t) j) = _
  rw [hx, he, Cert.Gcn.output_apply]
  refine (Body.output_block (iblk1 V c 0 t) (iblk1 V c 1 t) (iblk1 V c 2 t) _ _).trans ?_
  refine congrArg₂ (· + ·) (Finset.sum_congr rfl fun k _ => ?_) ?_
  · exact congrArg₂ (· * ·) (hid_row V c t _ k _ rfl) (wgt2_all V c t k _)
  · exact bias2_all V c t _

/-- Every row of the result is in the block of the point that owns its 5000 rows. -/
theorem output_cover (i : S100000x32.Idx) :
    ∃ t : Fin cfg1.N, (cfg1.win 3).flush t = true ∧ i ∈ ((cfg1.win 3).blk t).view.set := by
  have h0 : (i 0).val < 100000 := (i 0).isLt
  have h1 : (i 1).val < 32 := (i 1).isLt
  have hlt : (i 0).val / 5000 < cfg1.N := lt_of_lt_of_eq (by omega : (i 0).val / 5000 < 20) N_1.symm
  refine ⟨⟨(i 0).val / 5000, hlt⟩, flush1_3 _, ?_⟩
  show i ∈ ((View.whole main_v23).slice (win1_3.rect ⟨(i 0).val / 5000, hlt⟩)).set
  rw [View.set_slice_whole, Rect.mem_set_unit]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [(where1 ⟨(i 0).val / 5000, hlt⟩).2.2.2.2.2.2.1]
    show (i 0).val / 5000 * 5000 ≤ (i 0).val ∧ (i 0).val < (i 0).val / 5000 * 5000 + 5000
    omega
  | ⟨1, _⟩ =>
    show win1_3.index ⟨(i 0).val / 5000, hlt⟩ (1 : Fin 2) * 32 ≤ (i 1).val ∧ (i 1).val < win1_3.index ⟨(i 0).val / 5000, hlt⟩ (1 : Fin 2) * 32 + 32
    rw [(where1 ⟨(i 0).val / 5000, hlt⟩).2.2.2.2.2.2.2]
    omega

/-- The second region's output array after its run: the output layer of the arrays the region finds. -/
theorem output_array (c : Dev nD) :
    (dat1 (F := Ideal) V c).arrAt 3 cfg1.N = Cert.Gcn.output (V c main_v21) (V c main_arg5) (V c main_v22) :=
  (dat1 (F := Ideal) V c).arrAt_eq_of_cover 3 _ (fun t _ => output_flushed V c t) output_cover

end Cert.KernelIdeal.Arrays

end
-- ==== Proof.RefLayers.lean ====
/-
  The reference's two dense layers are `hidden` and `output` of the aggregated arrays.

  The reference computes each layer on the whole array: a product contracting the feature axis, the bias broadcast
  over the rows, and for the first layer the maximum with zero. Read at row r and column j that is the sum over k of
  A (r, k) · W (k, j), plus b (j), rectified or not: the layer functions applied to the aggregated array the
  reference's scatter-add produced, which is never opened.
-/
import proofs.«121119_j317827580689_1_alg».proof.Proof.Gen.ReferenceIdeal.Read
import proofs.«121119_j317827580689_1_alg».proof.Proof.Layers

noncomputable section

namespace Cert.ReferenceIdeal.Layers

open Cert.ReferenceIdeal Cert.ReferenceIdeal.Read
open Idealize.ShloMosaic Idealize.ShloMosaic.ValueIdx
open scoped BigOperators

variable (x0 : (⟨S100000x128, .f32⟩ : BufTy).Contents (Elt Ideal)) (x1 x2 : (⟨S1600000, .i32⟩ : BufTy).Contents (Elt Ideal))
  (x3 : (⟨S128x16, .f32⟩ : BufTy).Contents (Elt Ideal)) (x4 : (⟨S16, .f32⟩ : BufTy).Contents (Elt Ideal))
  (x5 : (⟨S16x32, .f32⟩ : BufTy).Contents (Elt Ideal)) (x6 : (⟨S32, .f32⟩ : BufTy).Contents (Elt Ideal))

/-- The reference's rectified first layer is `hidden` of its first aggregated array. -/
theorem hidden_eq : val_main_v14 (F := Ideal) x0 x1 x2 x3 x4
    = Cert.Gcn.hidden (val_main_v9 (F := Ideal) x0 x1 x2) x3 (Cert.Gcn.asRow x4) := by
  funext i
  rw [val_main_v14_apply, val_main_v13_apply, val_main_v10_apply, val_main_v12_apply, val_main_v11_apply,
    val_main_call0_v0_apply, val_main_call0_cst_apply]
  refine congrArg₂ max (congrArg₂ (· + ·) (Finset.sum_congr rfl fun k _ =>
    congrArg₂ (· * ·) (congrArg (val_main_v9 (F := Ideal) x0 x1 x2) ?_) (congrArg x3 ?_)) (congrArg x4 ?_)) rfl
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The aggregation of a hidden array over the graph's edges, as the reference carries it out: the rows gathered at
    the edges' sources and added at their targets. Never opened. -/
def aggregate (h : FVec Ideal S100000x16 .f32) : FVec Ideal S100000x16 .f32 :=
  Host.scatterAdd (F := Ideal) (φ := .f32) scatter_S100000x16_S1600000x1_S1600000x16_1_0_0_1 (val_main_v22 (F := Ideal)) (val_main_v23 (F := Ideal) x2)
    (Host.gather gather_S100000x16_S1600000x1_S1600000x16_1_0_n_n_0_1_116 h (val_main_v20 (F := Ideal) x1))

/-- The reference's second aggregated array is the aggregation of its hidden layer. -/
theorem aggregate_hidden : val_main_v24 (F := Ideal) x0 x1 x2 x3 x4 = aggregate x1 x2 (val_main_v14 (F := Ideal) x0 x1 x2 x3 x4) := rfl

/-- The reference's result is `output` of its second aggregated array. -/
theorem output_eq : val_main_v28 (F := Ideal) x0 x1 x2 x3 x4 x5 x6
    = Cert.Gcn.output (val_main_v24 (F := Ideal) x0 x1 x2 x3 x4) x5 (Cert.Gcn.asRow x6) := by
  funext i
  rw [val_main_v28_apply, val_main_v25_apply, val_main_v27_apply, val_main_v26_apply]
  refine congrArg₂ (· + ·) (Finset.sum_congr rfl fun k _ =>
    congrArg₂ (· * ·) (congrArg (val_main_v24 (F := Ideal) x0 x1 x2 x3 x4) ?_) (congrArg x5 ?_)) (congrArg x6 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

end Cert.ReferenceIdeal.Layers

end
-- ==== Proof.KernelHost.lean ====
/-
  The arrays each region is entered with, read off the host operations before it.

  Before each region the host gathers the rows of a node array at the edges' sources and adds them at the edges'
  targets, and reshapes the layer's bias to one row; it writes no argument. So the first region finds the aggregation
  of the input features, the first weights and the first bias as a row; the second region finds the aggregation of
  whatever array the first region left as its output, the second weights and the second bias as a row. The
  aggregation is the very operation sequence the reference applies — the same gather and scatter-add dimension
  records, the same constants — and is carried as one function of the node array and the two edge lists.
-/
import proofs.«121119_j317827580689_1_alg».proof.Proof.Gen.KernelIdeal.Frame
import proofs.«121119_j317827580689_1_alg».proof.Proof.RefLayers
import Idealize.ShloMosaic.Lib.StableHlo.Run
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A vector reshaped to one row is the vector laid out as a row. -/
theorem reshape_asRow {n : Nat} (b : (⟨1, ![n]⟩ : Shape).Idx → EReal) (h : (⟨1, ![n]⟩ : Shape).ShapeCasts ⟨2, ![1, n]⟩) :
    shapeCast ⟨2, ![1, n]⟩ b h = Cert.Gcn.asRow b :=
  funext fun i => (congrArg (shapeCast ⟨2, ![1, n]⟩ b h) (eq_ix2 i)).trans (shapeCast_a_1a_apply b h (i 0) (i 1))

/-! ## Before the first region -/

/-- The first stretch writes no argument. -/
theorem entry0_arg1 (c : Dev nD) : W1 m ρ c (Proc.devRef .tc main_arg1) = m ((c : Thread nD τ).loc main_arg1) := by
  show StableHlo.after hostOps0 (W0 m ρ c) (Proc.devRef .tc main_arg1) = _
  after_results
theorem entry0_arg2 (c : Dev nD) : W1 m ρ c (Proc.devRef .tc main_arg2) = m ((c : Thread nD τ).loc main_arg2) := by
  show StableHlo.after hostOps0 (W0 m ρ c) (Proc.devRef .tc main_arg2) = _
  after_results
theorem entry0_arg5 (c : Dev nD) : W1 m ρ c (Proc.devRef .tc main_arg5) = m ((c : Thread nD τ).loc main_arg5) := by
  show StableHlo.after hostOps0 (W0 m ρ c) (Proc.devRef .tc main_arg5) = _
  after_results
theorem entry0_arg6 (c : Dev nD) : W1 m ρ c (Proc.devRef .tc main_arg6) = m ((c : Thread nD τ).loc main_arg6) := by
  show StableHlo.after hostOps0 (W0 m ρ c) (Proc.devRef .tc main_arg6) = _
  after_results

/-- The first region finds the aggregation of the input features: the reference's first aggregated array. -/
theorem feat_entry (c : Dev nD) : V1 m ρ c main_v9
    = Cert.ReferenceIdeal.Read.val_main_v9 (F := Ideal) (m ((c : Thread nD τ).loc main_arg0))
        (m ((c : Thread nD τ).loc main_arg1)) (m ((c : Thread nD τ).loc main_arg2)) := by
  show StableHlo.after hostOps0 (W0 m ρ c) (Proc.devRef .tc main_v9) = _
  after_results
  rfl

/-- … the first weights as launched … -/
theorem wgt1_entry (c : Dev nD) : V1 m ρ c main_arg3 = m ((c : Thread nD τ).loc main_arg3) := by
  show StableHlo.after hostOps0 (W0 m ρ c) (Proc.devRef .tc main_arg3) = _
  after_results

/-- … and the first bias as a row. -/
theorem bias1_entry (c : Dev nD) : V1 m ρ c main_v10 = Cert.Gcn.asRow (m ((c : Thread nD τ).loc main_arg4)) := by
  refine Eq.trans ?_ (reshape_asRow (m ((c : Thread nD τ).loc main_arg4)) shapeCasts_S16_S1x16)
  show StableHlo.after hostOps0 (W0 m ρ c) (Proc.devRef .tc main_v10) = _
  after_results
  rfl

/-! ## Between the regions -/

/-- The first region writes its output array only: the arguments are still as launched. -/
theorem exit0_arg1 (c : Dev nD) : W2 m ρ c (Proc.devRef .tc main_arg1) = m ((c : Thread nD τ).loc main_arg1) :=
  (W2_of_ne m ρ c main_arg1 (by decide)).trans (entry0_arg1 m ρ c)
theorem exit0_arg2 (c : Dev nD) : W2 m ρ c (Proc.devRef .tc main_arg2) = m ((c : Thread nD τ).loc main_arg2) :=
  (W2_of_ne m ρ c main_arg2 (by decide)).trans (entry0_arg2 m ρ c)
theorem exit0_arg5 (c : Dev nD) : W2 m ρ c (Proc.devRef .tc main_arg5) = m ((c : Thread nD τ).loc main_arg5) :=
  (W2_of_ne m ρ c main_arg5 (by decide)).trans (entry0_arg5 m ρ c)
theorem exit0_arg6 (c : Dev nD) : W2 m ρ c (Proc.devRef .tc main_arg6) = m ((c : Thread nD τ).loc main_arg6) :=
  (W2_of_ne m ρ c main_arg6 (by decide)).trans (entry0_arg6 m ρ c)

/-- The second region finds the aggregation of the first region's output array … -/
theorem hid_entry (c : Dev nD) : V3 m ρ c main_v21
    = Cert.ReferenceIdeal.Layers.aggregate (m ((c : Thread nD τ).loc main_arg1)) (m ((c : Thread nD τ).loc main_arg2))
        (W2 m ρ c (Proc.devRef .tc main_v11)) := by
  show StableHlo.after hostOps1 (W2 m ρ c) (Proc.devRef .tc main_v21) = _
  after_results
  rw [exit0_arg1 m ρ c, exit0_arg2 m ρ c]
  rfl

/-- … the second weights as launched … -/
theorem wgt2_entry (c : Dev nD) : V3 m ρ c main_arg5 = m ((c : Thread nD τ).loc main_arg5) := by
  refine Eq.trans ?_ (exit0_arg5 m ρ c)
  show StableHlo.after hostOps1 (W2 m ρ c) (Proc.devRef .tc main_arg5) = _
  after_results

/-- … and the second bias as a row. -/
theorem bias2_entry (c : Dev nD) : V3 m ρ c main_v22 = Cert.Gcn.asRow (m ((c : Thread nD τ).loc main_arg6)) := by
  refine Eq.trans ?_ (reshape_asRow (m ((c : Thread nD τ).loc main_arg6)) shapeCasts_S32_S1x32)
  show StableHlo.after hostOps1 (W2 m ρ c) (Proc.devRef .tc main_v22) = _
  after_results
  rw [exit0_arg6 m ρ c]
  rfl

end Cert.KernelIdeal.Host

end
-- ==== Proof.Bridge.lean ====
/-
  The kernel's result array is the reference's result as a function of the launch arguments.

  Region by region: the first region's output array is the hidden layer of the aggregated input features — what the
  reference calls its rectified first layer; the host then aggregates that array exactly as the reference aggregates
  its own, so the second region is entered with the reference's second aggregated array, and its output array is the
  output layer of that — the reference's result.
-/
import proofs.«121119_j317827580689_1_alg».proof.Proof.KernelRun
import proofs.«121119_j317827580689_1_alg».proof.Proof.KernelArrays
import proofs.«121119_j317827580689_1_alg».proof.Proof.KernelHost

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first region its output array holds the reference's rectified first layer of the launch arguments. -/
theorem hidden_result (c : Dev nD) : W2 m ρ c (Proc.devRef .tc main_v11)
    = Cert.ReferenceIdeal.Read.val_main_v14 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W2_arr m ρ c 3).trans ?_
  rw [Arrays.hidden_array (V1 m ρ) c, Host.feat_entry m ρ c, Host.wgt1_entry m ρ c, Host.bias1_entry m ρ c]
  exact (Cert.ReferenceIdeal.Layers.hidden_eq _ _ _ _ _).symm

/-- After the second region the result array holds the reference's result of the launch arguments. -/
theorem result (c : Dev nD) : W4 m ρ c (Proc.devRef .tc main_v23)
    = Cert.ReferenceIdeal.Read.val_main_v28 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (W4_arr m ρ c 3).trans ?_
  rw [Arrays.output_array (V3 m ρ) c, Host.hid_entry m ρ c, hidden_result m ρ c, Host.wgt2_entry m ρ c, Host.bias2_entry m ρ c,
    ← Cert.ReferenceIdeal.Layers.aggregate_hidden]
  exact (Cert.ReferenceIdeal.Layers.output_eq _ _ _ _ _ _ _).symm

/-- The kernel's run: it ends with the result buffer at the reference's result of the launch arguments and the
    arguments as launched. -/
theorem run : θ_run defs (onTc (τ := τ) (main (F := Ideal))) ⟨m, fun _ => 0, ρ⟩ (fun r => ∀ c : Dev nD,
      r.2.mem ((c.tc : Thread nD τ).loc main_v23)
        = Cert.ReferenceIdeal.Read.val_main_v28 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (Cert.KernelIdeal.Result.run (F := Ideal) m ρ)

end Cert.KernelIdeal.Whole

end
-- ==== Proof.lean ====
/-
  A two-layer graph network: aggregate the neighbours' rows (gather at the edges' sources, add at their targets), apply
  a dense layer and rectify; aggregate again and apply a second dense layer.

  The kernel and the reference aggregate with the same host operations and differ only in the dense layers: the
  reference multiplies the whole aggregated array by the weights and adds the bias; the kernel does so 5000 rows at a
  time, with the operands narrowed to bfloat16 before the product. Over the extended reals the narrowing is the
  identity and a product into a zero accumulator is the plain sum of products, and a dense layer's row depends only on
  the same row of its input: so each region's output array is the layer of the array it found (Proof/KernelBody.lean,
  Proof/KernelArrays.lean), the arrays found are the aggregations (Proof/KernelHost.lean), and the kernel's result is
  the reference's result stage as a function of the arguments (Proof/Bridge.lean), which the reference's own run ends
  at (Proof/RefLayers.lean reads its layers as the same two layer functions, Proof/Layers.lean). No algebraic law is
  used beyond rewriting sums termwise, so the precondition is never opened.

  The frames of the two kernel programs are the generated ones; the reference's is its generated run with the result
  dropped. Nothing was rewritten by the idealization, so `preserves` is `True`.
-/
import proofs.«121119_j317827580689_1_alg».proof.Defs
import proofs.«121119_j317827580689_1_alg».proof.Proof.Gen.Kernel
import proofs.«121119_j317827580689_1_alg».proof.Proof.Gen.Kernel.Skeleton
import proofs.«121119_j317827580689_1_alg».proof.Proof.Gen.Kernel.Launch
import proofs.«121119_j317827580689_1_alg».proof.Proof.Gen.Kernel.Points
import proofs.«121119_j317827580689_1_alg».proof.Proof.Gen.Kernel.Frame
import proofs.«121119_j317827580689_1_alg».proof.Proof.Gen.KernelIdeal
import proofs.«121119_j317827580689_1_alg».proof.Proof.Gen.KernelIdeal.Skeleton
import proofs.«121119_j317827580689_1_alg».proof.Proof.Gen.KernelIdeal.Launch
import proofs.«121119_j317827580689_1_alg».proof.Proof.Gen.KernelIdeal.Points
import proofs.«121119_j317827580689_1_alg».proof.Proof.Gen.KernelIdeal.Frame
import proofs.«121119_j317827580689_1_alg».proof.Proof.Gen.ReferenceIdeal
import proofs.«121119_j317827580689_1_alg».proof.Proof.Gen.Pre_finite_inputs
import proofs.«121119_j317827580689_1_alg».proof.Proof.Gen.ReferenceIdeal.Run
import proofs.«121119_j317827580689_1_alg».proof.Proof.Gen.ReferenceIdeal.Read
import proofs.«121119_j317827580689_1_alg».proof.Proof.Bridge
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's result stage of those
    arguments in their result buffers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact Cert.ReferenceIdeal.Read.val_main_v28_eq (F := Ideal) _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
